-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg5 : FVec F S128 .f32) (main_arg6 : FVec F S256x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S256x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S_ : Shape := ⟨0, ![]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S850000x1 : Shape := ⟨2, ![850000, 1]⟩
abbrev S2000x128 : Shape := ⟨2, ![2000, 128]⟩
abbrev S850000x128 : Shape := ⟨2, ![850000, 128]⟩
abbrev S1x128 : Shape := ⟨2, ![1, 128]⟩

abbrev nBuf : Space → Nat
  | .hbm => 103
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S50000x128, .f32⟩
  | .hbm, ⟨12, _⟩ => ⟨S50000x128, .f32⟩
  | .hbm, ⟨13, _⟩ => ⟨S_, .f32⟩
  | .hbm, ⟨14, _⟩ => ⟨S50000x128, .f32⟩
  | .hbm, ⟨15, _⟩ => ⟨S50000x128, .f32⟩
  | .hbm, ⟨16, _⟩ => ⟨S50000, .i32⟩
  | .hbm, ⟨17, _⟩ => ⟨S1x800000, .i32⟩
  | .hbm, ⟨18, _⟩ => ⟨S800000, .i32⟩
  | .hbm, ⟨19, _⟩ => ⟨S850000, .i32⟩
  | .hbm, ⟨20, _⟩ => ⟨S1x800000, .i32⟩
  | .hbm, ⟨21, _⟩ => ⟨S800000, .i32⟩
  | .hbm, ⟨22, _⟩ => ⟨S850000, .i32⟩
  | .hbm, ⟨23, _⟩ => ⟨S_, .f32⟩
  | .hbm, ⟨24, _⟩ => ⟨S850000, .f32⟩
  | .hbm, ⟨25, _⟩ => ⟨S_, .f32⟩
  | .hbm, ⟨26, _⟩ => ⟨S50000, .f32⟩
  | .hbm, ⟨27, _⟩ => ⟨S850000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000, .f32⟩
  | .hbm, ⟨51, _⟩ => ⟨S850000, .f32⟩
  | .hbm, ⟨52, _⟩ => ⟨S50000x128, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x128, .f32⟩
  | .hbm, ⟨62, _⟩ => ⟨S850000x1, .f32⟩
  | .hbm, ⟨63, _⟩ => ⟨S850000x128, .f32⟩
  | .hbm, ⟨64, _⟩ => ⟨S850000x128, .f32⟩
  | .hbm, ⟨65, _⟩ => ⟨S_, .f32⟩
  | .hbm, ⟨66, _⟩ => ⟨S50000x128, .f32⟩
  | .hbm, ⟨67, _⟩ => ⟨S850000x1, .i32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S_, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S_, .i32⟩
  | .hbm, ⟨77, _⟩ => ⟨S850000, .i32⟩
  | .hbm, ⟨78, _⟩ => ⟨S850000, .i1⟩
  | .hbm, ⟨79, _⟩ => ⟨S_, .i32⟩
  | .hbm, ⟨80, _⟩ => ⟨S850000, .i32⟩
  | .hbm, ⟨81, _⟩ => ⟨S850000, .i32⟩
  | .hbm, ⟨82, _⟩ => ⟨S850000, .i32⟩
  | .hbm, ⟨83, _⟩ => ⟨S850000x1, .i32⟩
  | .hbm, ⟨84, _⟩ => ⟨S850000x128, .f32⟩
  | .hbm, ⟨85, _⟩ => ⟨S850000x1, .f32⟩
  | .hbm, ⟨86, _⟩ => ⟨S850000x128, .f32⟩
  | .hbm, ⟨87, _⟩ => ⟨S850000x128, .f32⟩
  | .hbm, ⟨88, _⟩ => ⟨S_, .f32⟩
  | .hbm, ⟨89, _⟩ => ⟨S50000x128, .f32⟩
  | .hbm, ⟨90, _⟩ => ⟨S850000x1, .i32⟩
  | .hbm, ⟨91, _⟩ => ⟨S50000x128, .f32⟩
  | .hbm, ⟨92, _⟩ => ⟨S1x128, .f32⟩
  | .hbm, ⟨93, _⟩ => ⟨S50000x128, .f32⟩
  | .hbm, ⟨94, _⟩ => ⟨S50000x128, .f32⟩
  | .hbm, ⟨95, _⟩ => ⟨S_, .f32⟩
  | .hbm, ⟨96, _⟩ => ⟨S50000x128, .f32⟩
  | .hbm, ⟨97, _⟩ => ⟨S50000x128, .f32⟩
  | .hbm, ⟨98, _⟩ => ⟨S50000x128, .f32⟩
  | .hbm, ⟨99, _⟩ => ⟨S128x128, .f32⟩
  | .hbm, ⟨100, _⟩ => ⟨S128x128, .f32⟩
  | .hbm, ⟨101, _⟩ => ⟨S1x128, .f32⟩
  | .hbm, ⟨102, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S128x128, .f32⟩
  | .local _ .vmem, ⟨16, _⟩ => ⟨S1x128, .f32⟩
  | .local _ .vmem, ⟨17, _⟩ => ⟨S2000x128, .f32⟩
  | .local _ .vmem, ⟨18, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_3 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_v22 : Ref sig .tc := ⟨.hbm, 43, rfl⟩
abbrev main_v23 : Ref sig .tc := ⟨.hbm, 44, rfl⟩
abbrev main_c_6 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_c_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_cst : Ref sig .tc := ⟨.hbm, 72, rfl⟩
abbrev main_call1_v0 : Ref sig .tc := ⟨.hbm, 73, rfl⟩
abbrev main_v47 : Ref sig .tc := ⟨.hbm, 74, rfl⟩
abbrev main_v48 : Ref sig .tc := ⟨.hbm, 75, rfl⟩
abbrev main_c_10 : Ref sig .tc := ⟨.hbm, 76, rfl⟩
abbrev main_v49 : Ref sig .tc := ⟨.hbm, 77, rfl⟩
abbrev main_v50 : Ref sig .tc := ⟨.hbm, 78, rfl⟩
abbrev main_c_11 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_12 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_call2_cst : Ref sig .tc := ⟨.hbm, 95, rfl⟩
abbrev main_call2_v0 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg5_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem5_1 : DmaSem sig := 18

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S50000x128 : S_.BroadcastsInDim S50000x128 (![] : Fin 0 → Fin S50000x128.rank)
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S256x128_S128x128_0_0 : S256x128.Slices ![0, 0] S128x128
  slices_S256x128_S128x128_128_0 : S256x128.Slices ![128, 0] S128x128
  shapeCasts_S128_S1x128 : S128.ShapeCasts S1x128
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_v0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v66) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v67) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v68) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v69) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v70) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S_ : Shape := ⟨0, ![]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S850000x1 : Shape := ⟨2, ![850000, 1]⟩
abbrev S850000x128 : Shape := ⟨2, ![850000, 128]⟩
abbrev S1x128 : Shape := ⟨2, ![1, 128]⟩
abbrev S50000x256 : Shape := ⟨2, ![50000, 256]⟩

abbrev nBuf : Space → Nat
  | .hbm => 142
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S256x128, .f32⟩
  | 7 => ⟨S128, .f32⟩
  | 8 => ⟨S_, .f32⟩
  | 9 => ⟨S_, .f32⟩
  | 10 => ⟨S_, .f32⟩
  | 11 => ⟨S50000x128, .f32⟩
  | 12 => ⟨S50000x128, .f32⟩
  | 13 => ⟨S_, .f32⟩
  | 14 => ⟨S50000x128, .f32⟩
  | 15 => ⟨S50000x128, .f32⟩
  | 16 => ⟨S50000, .i32⟩
  | 17 => ⟨S1x800000, .i32⟩
  | 18 => ⟨S800000, .i32⟩
  | 19 => ⟨S850000, .i32⟩
  | 20 => ⟨S1x800000, .i32⟩
  | 21 => ⟨S800000, .i32⟩
  | 22 => ⟨S850000, .i32⟩
  | 23 => ⟨S50000x128, .f32⟩
  | 24 => ⟨S_, .f32⟩
  | 25 => ⟨S850000, .f32⟩
  | 26 => ⟨S_, .f32⟩
  | 27 => ⟨S50000, .f32⟩
  | 28 => ⟨S850000x1, .i32⟩
  | 29 => ⟨S50000, .f32⟩
  | 30 => ⟨S_, .f32⟩
  | 31 => ⟨S50000, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x128, .f32⟩
  | 62 => ⟨S850000x1, .f32⟩
  | 63 => ⟨S850000x128, .f32⟩
  | 64 => ⟨S850000x128, .f32⟩
  | 65 => ⟨S_, .f32⟩
  | 66 => ⟨S50000x128, .f32⟩
  | 67 => ⟨S850000x1, .i32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S50000x128, .f32⟩
  | 76 => ⟨S_, .f32⟩
  | 77 => ⟨S850000, .f32⟩
  | 78 => ⟨S_, .f32⟩
  | 79 => ⟨S50000, .f32⟩
  | 80 => ⟨S850000x1, .i32⟩
  | 81 => ⟨S50000, .f32⟩
  | 82 => ⟨S_, .f32⟩
  | 83 => ⟨S50000, .f32⟩
  | 84 => ⟨S50000, .f32⟩
  | 85 => ⟨S50000, .f32⟩
  | 86 => ⟨S_, .i32⟩
  | 87 => ⟨S850000, .i32⟩
  | 88 => ⟨S850000, .i1⟩
  | 89 => ⟨S_, .i32⟩
  | 90 => ⟨S850000, .i32⟩
  | 91 => ⟨S850000, .i32⟩
  | 92 => ⟨S850000, .i32⟩
  | 93 => ⟨S850000x1, .i32⟩
  | 94 => ⟨S850000, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000, .f32⟩
  | 104 => ⟨S850000, .f32⟩
  | 105 => ⟨S_, .i32⟩
  | 106 => ⟨S850000, .i32⟩
  | 107 => ⟨S850000, .i1⟩
  | 108 => ⟨S_, .i32⟩
  | 109 => ⟨S850000, .i32⟩
  | 110 => ⟨S850000, .i32⟩
  | 111 => ⟨S850000, .i32⟩
  | 112 => ⟨S850000x1, .i32⟩
  | 113 => ⟨S850000x128, .f32⟩
  | 114 => ⟨S850000x1, .f32⟩
  | 115 => ⟨S850000x128, .f32⟩
  | 116 => ⟨S850000x128, .f32⟩
  | 117 => ⟨S_, .f32⟩
  | 118 => ⟨S50000x128, .f32⟩
  | 119 => ⟨S850000x1, .i32⟩
  | 120 => ⟨S50000x128, .f32⟩
  | 121 => ⟨S1x128, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S50000x128, .f32⟩
  | _ => ⟨S50000x128, .f32⟩

abbrev hbmTy0_1 (i : Nat) : BufTy := match i % 128 with
  | 0 => ⟨S50000x256, .f32⟩
  | 1 => ⟨S50000x128, .f32⟩
  | 2 => ⟨S1x128, .f32⟩
  | 3 => ⟨S50000x128, .f32⟩
  | 4 => ⟨S50000x128, .f32⟩
  | 5 => ⟨S50000x128, .f32⟩
  | 6 => ⟨S50000x128, .f32⟩
  | 7 => ⟨S_, .f32⟩
  | 8 => ⟨S50000x128, .f32⟩
  | 9 => ⟨S50000x128, .f32⟩
  | 10 => ⟨S_, .f32⟩
  | 11 => ⟨S50000x128, .f32⟩
  | 12 => ⟨S50000x128, .f32⟩
  | 13 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_c_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_cst : Ref sig .tc := ⟨.hbm, 72, rfl⟩
abbrev main_call1_v0 : Ref sig .tc := ⟨.hbm, 73, rfl⟩
abbrev main_v47 : Ref sig .tc := ⟨.hbm, 74, rfl⟩
abbrev main_v48 : Ref sig .tc := ⟨.hbm, 75, rfl⟩
abbrev main_cst_10 : Ref sig .tc := ⟨.hbm, 76, rfl⟩
abbrev main_v49 : Ref sig .tc := ⟨.hbm, 77, rfl⟩
abbrev main_cst_11 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_12 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_13 : Ref sig .tc := ⟨.hbm, 86, rfl⟩
abbrev main_v56 : Ref sig .tc := ⟨.hbm, 87, rfl⟩
abbrev main_v57 : Ref sig .tc := ⟨.hbm, 88, rfl⟩
abbrev main_c_14 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_c_15 : Ref sig .tc := ⟨.hbm, 95, rfl⟩
abbrev main_v63 : Ref sig .tc := ⟨.hbm, 96, rfl⟩
abbrev main_v64 : Ref sig .tc := ⟨.hbm, 97, rfl⟩
abbrev main_c_16 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_c_17 : Ref sig .tc := ⟨.hbm, 105, rfl⟩
abbrev main_v71 : Ref sig .tc := ⟨.hbm, 106, rfl⟩
abbrev main_v72 : Ref sig .tc := ⟨.hbm, 107, rfl⟩
abbrev main_c_18 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_19 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_call2_cst : Ref sig .tc := ⟨.hbm, 124, rfl⟩
abbrev main_call2_v0 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_20 : Ref sig .tc := ⟨.hbm, 135, rfl⟩
abbrev main_v96 : Ref sig .tc := ⟨.hbm, 136, rfl⟩
abbrev main_v97 : Ref sig .tc := ⟨.hbm, 137, rfl⟩
abbrev main_cst_21 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩

abbrev nD : Nat := 1
abbrev τ : Topo := Topo.v7x

variable {F : FTy → Type} [FloatOps F]

class Facts₀ : Prop where
  bcast_S_S50000x128 : S_.BroadcastsInDim S50000x128 (![] : Fin 0 → Fin S50000x128.rank)
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S50000x256_d1 : Shape.Concatenates [S50000x128, S50000x128] S50000x256 1
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x256_S256x128_S50000x128_1_0_0_1_n_n_wf : DotDims.WF S50000x256 S256x128 S50000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KHost.lean ====
/-
  The host arithmetic of the kernel's program between its three dense regions, as functions of array contents.

  The program first clips the features to [-100, 100] (`clip`), builds the edge lists with a self-loop appended for
  every node (`edgeSrc`, `edgeDst`: the given 800000 edges, then node n → node n for the 50000 nodes), counts each
  node's incoming edges, takes the inverse square root of that count (at least one) and multiplies the two ends'
  values per edge (`edgeNorm`). After each dense product it gathers the product's row at every edge's source,
  scales it by the edge's norm, adds the rows up at the edge's destination and adds the bias (`aggregate`), then
  clamps at zero (`relu`). Before the last region it adds the clipped features back (a sum) and cuts the gate's
  `[256, 128]` weight into its two `[128, 128]` halves (`upperHalf`, `lowerHalf`), the bias reshaped to one row
  (`asRow`).

  Each theorem below says what one buffer holds after one stretch of host operations, from ANY contents before the
  stretch: the named function of the buffers the stretch read. Nothing is evaluated; the functions stay folded.
-/
import proofs.«157526_j51238959841304_1_alg».proof.Proof.Gen.KernelIdeal.Frame
import Idealize.ShloMosaic.Lib.StableHlo.Run

set_option maxHeartbeats 4000000

noncomputable section

namespace Cert.KernelIdeal.HostValue

open Cert.KernelIdeal Cert.KernelIdeal.Gen Idealize.ShloMosaic Idealize.ShloMosaic.TcCoe Idealize.SL.Sem
open Idealize.ShloMosaic.StableHlo

variable {F : FTy → Type} [FloatOps F]

/-- Rewrites every operation's result left in the goal (also inside a concatenation's operand list) to the
    operation's function at its own buffer and to the earlier contents elsewhere. -/
local macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-! ## The functions -/

/-- The features clipped to [-100, 100]. -/
def clip (x : (⟨S50000x128, .f32⟩ : BufTy).Contents (Elt F)) : (⟨S50000x128, .f32⟩ : BufTy).Contents (Elt F) :=
  minimumf (broadcastInDim S50000x128 ![] bcast_S_S50000x128 (constant S_ .f32 0x42C80000#32))
    (maximumf (broadcastInDim S50000x128 ![] bcast_S_S50000x128 (constant S_ .f32 0xC2C80000#32)) x)

/-- Row `r` of the edge list, then the nodes 0 … 49999 (the self-loops). -/
def edgeSrc (e : (⟨S2x800000, .i32⟩ : BufTy).Contents (Elt F)) : (⟨S850000, .i32⟩ : BufTy).Contents (Elt F) :=
  concatenate S850000 0 [⟨S800000, shapeCast S800000 (extractStridedSlice S1x800000 ![0, 0] e slices_S2x800000_S1x800000_0_0) shapeCasts_S1x800000_S800000⟩, ⟨S50000, iotaInDim S50000 32 0⟩] concatenates_S800000_S50000_S850000_d0

def edgeDst (e : (⟨S2x800000, .i32⟩ : BufTy).Contents (Elt F)) : (⟨S850000, .i32⟩ : BufTy).Contents (Elt F) :=
  concatenate S850000 0 [⟨S800000, shapeCast S800000 (extractStridedSlice S1x800000 ![1, 0] e slices_S2x800000_S1x800000_1_0) shapeCasts_S1x800000_S800000⟩, ⟨S50000, iotaInDim S50000 32 0⟩] concatenates_S800000_S50000_S850000_d0

/-- A node index made non-negative (a negative one counted from the end), as a column of gather indices. -/
def wrapIdx (s : (⟨S850000, .i32⟩ : BufTy).Contents (Elt F)) : (⟨S850000x1, .i32⟩ : BufTy).Contents (Elt F) :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- One over the square root of each node's count of incoming edges (counted at least one). -/
def invSqrtDeg (d : (⟨S850000, .i32⟩ : BufTy).Contents (Elt F)) : (⟨S50000, .f32⟩ : BufTy).Contents (Elt F) :=
  Host.rsqrt (maximumf
    (Host.scatterAdd scatter_S50000_S850000x1_S850000_n_0_0_1 (broadcastInDim S50000 ![] bcast_S_S50000 (constant S_ .f32 0x00000000#32))
      (broadcastInDim S850000x1 ![0] bcast_S850000_S850000x1_0 d) (broadcastInDim S850000 ![] bcast_S_S850000 (constant S_ .f32 0x3F800000#32)))
    (broadcastInDim S50000 ![] bcast_S_S50000 (constant S_ .f32 0x3F800000#32)))

/-- Per edge, the product of its two ends' inverse square roots. -/
def edgeNorm (s d : (⟨S850000, .i32⟩ : BufTy).Contents (Elt F)) : (⟨S850000, .f32⟩ : BufTy).Contents (Elt F) :=
  mulf (Host.gather gather_S50000_S850000x1_S850000_n_0_n_n_0_1_1 (invSqrtDeg d) (wrapIdx s))
    (Host.gather gather_S50000_S850000x1_S850000_n_0_n_n_0_1_1 (invSqrtDeg d) (wrapIdx d))

/-- The rows of `y` at the edges' sources, scaled per edge, summed at the edges' destinations, plus the bias. -/
def aggregate (y : (⟨S50000x128, .f32⟩ : BufTy).Contents (Elt F)) (s d : (⟨S850000, .i32⟩ : BufTy).Contents (Elt F)) (n : (⟨S850000, .f32⟩ : BufTy).Contents (Elt F)) (b : (⟨S128, .f32⟩ : BufTy).Contents (Elt F)) :
    (⟨S50000x128, .f32⟩ : BufTy).Contents (Elt F) :=
  addf
    (Host.scatterAdd scatter_S50000x128_S850000x1_S850000x128_1_0_0_1 (broadcastInDim S50000x128 ![] bcast_S_S50000x128 (constant S_ .f32 0x00000000#32))
      (broadcastInDim S850000x1 ![0] bcast_S850000_S850000x1_0 d)
      (mulf (Host.gather gather_S50000x128_S850000x1_S850000x128_1_0_n_n_0_1_1128 y (wrapIdx s))
        (broadcastInDim S850000x128 ![0, 1] bcast_S850000x1_S850000x128_0_1 (broadcastInDim S850000x1 ![0] bcast_S850000_S850000x1_0 n))))
    (broadcastInDim S50000x128 ![0, 1] bcast_S1x128_S50000x128_0_1 (broadcastInDim S1x128 ![1] bcast_S128_S1x128_1 b))

/-- Clamped below at zero. -/
def relu (a : (⟨S50000x128, .f32⟩ : BufTy).Contents (Elt F)) : (⟨S50000x128, .f32⟩ : BufTy).Contents (Elt F) :=
  maximumf a (broadcastInDim S50000x128 ![] bcast_S_S50000x128 (constant S_ .f32 0x00000000#32))

/-- The first 128 rows of the gate's weight. -/
def upperHalf (g : (⟨S256x128, .f32⟩ : BufTy).Contents (Elt F)) : (⟨S128x128, .f32⟩ : BufTy).Contents (Elt F) := extractStridedSlice S128x128 ![0, 0] g slices_S256x128_S128x128_0_0
/-- Its last 128 rows. -/
def lowerHalf (g : (⟨S256x128, .f32⟩ : BufTy).Contents (Elt F)) : (⟨S128x128, .f32⟩ : BufTy).Contents (Elt F) := extractStridedSlice S128x128 ![128, 0] g slices_S256x128_S128x128_128_0
/-- The gate's bias as one row. -/
def asRow (b : (⟨S128, .f32⟩ : BufTy).Contents (Elt F)) : (⟨S1x128, .f32⟩ : BufTy).Contents (Elt F) := shapeCast S1x128 b shapeCasts_S128_S1x128

/-! ## The stretches before the first region -/

variable (W : Valuation τ sig (Elt F))

theorem clip_after :
    StableHlo.after hostOps0_1 (StableHlo.after hostOps0 W) (Proc.devRef .tc main_v0) = clip (W (Proc.devRef .tc main_arg0)) := by
  after_results_simp <;> rfl

theorem src_after : StableHlo.after hostOps0_2 W (Proc.devRef .tc main_v4) = edgeSrc (W (Proc.devRef .tc main_arg1)) := by
  after_results_simp
  results_rw
  rfl

theorem dst_after : StableHlo.after hostOps0_2 W (Proc.devRef .tc main_v7) = edgeDst (W (Proc.devRef .tc main_arg1)) := by
  after_results_simp
  results_rw
  rfl

theorem norm_after :
    StableHlo.after hostOps0_2 W (Proc.devRef .tc main_v29)
      = edgeNorm (edgeSrc (W (Proc.devRef .tc main_arg1))) (edgeDst (W (Proc.devRef .tc main_arg1))) := by
  after_results_simp
  results_rw
  rfl

/-! ## Between the regions -/

theorem agg1_after :
    StableHlo.after hostOps1 W (Proc.devRef .tc main_v46)
      = aggregate (W (Proc.devRef .tc main_v30)) (W (Proc.devRef .tc main_v4)) (W (Proc.devRef .tc main_v7))
          (W (Proc.devRef .tc main_v29)) (W (Proc.devRef .tc main_arg3)) := by
  after_results_simp <;> rfl

theorem relu1_after :
    StableHlo.after hostOps1_1 W (Proc.devRef .tc main_v47) = relu (W (Proc.devRef .tc main_v46)) := by
  after_results_simp <;> rfl

theorem agg2_after :
    StableHlo.after hostOps2 W (Proc.devRef .tc main_v64)
      = aggregate (W (Proc.devRef .tc main_v48)) (W (Proc.devRef .tc main_v4)) (W (Proc.devRef .tc main_v7))
          (W (Proc.devRef .tc main_v29)) (W (Proc.devRef .tc main_arg5)) := by
  after_results_simp <;> rfl

theorem relu2_after :
    StableHlo.after hostOps2_1 W (Proc.devRef .tc main_v65) = relu (W (Proc.devRef .tc main_v64)) := by
  after_results_simp <;> rfl

theorem residual_after :
    StableHlo.after hostOps2_2 W (Proc.devRef .tc main_v66)
      = addf (W (Proc.devRef .tc main_v65)) (W (Proc.devRef .tc main_v0)) := by
  after_results_simp <;> rfl

theorem upper_after : StableHlo.after hostOps2_2 W (Proc.devRef .tc main_v67) = upperHalf (W (Proc.devRef .tc main_arg6)) := by
  after_results_simp <;> rfl

theorem lower_after : StableHlo.after hostOps2_2 W (Proc.devRef .tc main_v68) = lowerHalf (W (Proc.devRef .tc main_arg6)) := by
  after_results_simp <;> rfl

theorem row_after : StableHlo.after hostOps2_2 W (Proc.devRef .tc main_v69) = asRow (W (Proc.devRef .tc main_arg7)) := by
  after_results_simp <;> rfl

/-! ## What a stretch leaves alone

No host operation writes an argument, and none writes a buffer an earlier stretch or region produced: each theorem
lists the buffers a later step still reads and says the stretch keeps them. -/

/-- The two constant operations and the clip keep the edge list. -/
theorem keep_clip_edges :
    StableHlo.after hostOps0_1 (StableHlo.after hostOps0 W) (Proc.devRef .tc main_arg1) = W (Proc.devRef .tc main_arg1) := by
  after_results_simp

/-- The stretch that builds the edge lists and norms keeps the clipped features. -/
theorem keep_graph_clipped :
    StableHlo.after hostOps0_2 W (Proc.devRef .tc main_v0) = W (Proc.devRef .tc main_v0) := by
  after_results_simp

/-- Everything before the first region keeps the weights and biases. -/
theorem keep_before_first (r : Ref sig .tc)
    (hr : r = main_arg2 ∨ r = main_arg3 ∨ r = main_arg4 ∨ r = main_arg5 ∨ r = main_arg6 ∨ r = main_arg7) :
    StableHlo.after hostOps0_2 (StableHlo.after hostOps0_1 (StableHlo.after hostOps0 W)) (Proc.devRef .tc r)
      = W (Proc.devRef .tc r) := by
  rcases hr with rfl | rfl | rfl | rfl | rfl | rfl <;> after_results_simp

/-- The first aggregation and its clamp keep what later steps read. -/
theorem keep_between (r : Ref sig .tc)
    (hr : r = main_v0 ∨ r = main_v4 ∨ r = main_v7 ∨ r = main_v29 ∨ r = main_arg4 ∨ r = main_arg5 ∨ r = main_arg6
      ∨ r = main_arg7) :
    StableHlo.after hostOps1_1 (StableHlo.after hostOps1 W) (Proc.devRef .tc r) = W (Proc.devRef .tc r) := by
  rcases hr with rfl | rfl | rfl | rfl | rfl | rfl | rfl | rfl <;> after_results_simp

/-- The second aggregation and its clamp keep the clipped features and the gate's parameters. -/
theorem keep_second (r : Ref sig .tc) (hr : r = main_v0 ∨ r = main_arg6 ∨ r = main_arg7) :
    StableHlo.after hostOps2_1 (StableHlo.after hostOps2 W) (Proc.devRef .tc r) = W (Proc.devRef .tc r) := by
  rcases hr with rfl | rfl | rfl <;> after_results_simp

/-- The last stretch keeps the clipped features. -/
theorem keep_last : StableHlo.after hostOps2_2 W (Proc.devRef .tc main_v0) = W (Proc.devRef .tc main_v0) := by
  after_results_simp

end Cert.KernelIdeal.HostValue

end
-- ==== Proof.Spec.lean ====
/-
  The two dense steps of the gated graph convolution, as functions of whole arrays read element by element on the
  extended reals. Nothing here mentions a program: the arrays are functions on index tuples of literal extents.

  * `dense a w`: the product of a `[50000, 128]` array of node features with a `[128, 128]` weight; element
    `(r, q)` is the sum over the 128 feature positions `k` of `a (r, k) · w (k, q)`. A product computed one block of
    2000 rows at a time and a product computed at once are this same function: a row of the result depends only on
    the same row of `a`.
  * `topRows g`, `bottomRows g`, `rowOf b`: the two halves of the gate's `[256, 128]` weight and its bias as a row.
  * `gated h x wh wx b`: the residual state `h` scaled by a sigmoid gate whose logit at `(r, q)` is
    `∑ k, h (r, k) · wh (k, q) + ∑ k, x (r, k) · wx (k, q) + b (0, q)`. With `wh` the first 128 rows of a `[256, 128]`
    weight and `wx` the last 128, the two sums are the two halves of one sum over 256 positions of the row
    `[h (r, ·), x (r, ·)]` against that weight (`sum_halves`), which is how a product with the concatenated features
    reads. The sigmoid is `1 / (1 + e^(-t))` on every extended real.
-/
import Idealize.ShloMosaic.Lib.ValueIdx
import Idealize.ShloMosaic.PureOps.Ideal.Laws

open scoped BigOperators

noncomputable section

namespace Cert.GatedGraph

open Idealize.ShloMosaic Idealize.ShloMosaic.ValueIdx

/-- The dense product `[50000, 128] × [128, 128]`, element by element. -/
def dense (a : (⟨2, ![50000, 128]⟩ : Shape).Idx → EReal) (w : (⟨2, ![128, 128]⟩ : Shape).Idx → EReal) :
    (⟨2, ![50000, 128]⟩ : Shape).Idx → EReal :=
  fun i => ∑ k : Fin 128, a (ix2 (i 0) k) * w (ix2 k (i 1))

theorem dense_apply (a : (⟨2, ![50000, 128]⟩ : Shape).Idx → EReal) (w : (⟨2, ![128, 128]⟩ : Shape).Idx → EReal)
    (r : Fin 50000) (q : Fin 128) : dense a w (ix2 r q) = ∑ k : Fin 128, a (ix2 r k) * w (ix2 k q) := rfl

/-- The gate's logit at `(r, q)`. -/
def logit (h x : (⟨2, ![50000, 128]⟩ : Shape).Idx → EReal) (wh wx : (⟨2, ![128, 128]⟩ : Shape).Idx → EReal)
    (b : (⟨2, ![1, 128]⟩ : Shape).Idx → EReal) (r : Fin 50000) (q : Fin 128) : EReal :=
  (∑ k : Fin 128, h (ix2 r k) * wh (ix2 k q)) + (∑ k : Fin 128, x (ix2 r k) * wx (ix2 k q)) + b (ix2 0 q)

/-- The residual state times its sigmoid gate, element by element. -/
def gated (h x : (⟨2, ![50000, 128]⟩ : Shape).Idx → EReal) (wh wx : (⟨2, ![128, 128]⟩ : Shape).Idx → EReal)
    (b : (⟨2, ![1, 128]⟩ : Shape).Idx → EReal) : (⟨2, ![50000, 128]⟩ : Shape).Idx → EReal :=
  fun i => h i * Ideal.logistic (logit h x wh wx b (i 0) (i 1))

theorem gated_apply (h x : (⟨2, ![50000, 128]⟩ : Shape).Idx → EReal) (wh wx : (⟨2, ![128, 128]⟩ : Shape).Idx → EReal)
    (b : (⟨2, ![1, 128]⟩ : Shape).Idx → EReal) (r : Fin 50000) (q : Fin 128) :
    gated h x wh wx b (ix2 r q) = h (ix2 r q) * Ideal.logistic (logit h x wh wx b r q) := rfl

/-- The first 128 rows of a `[256, 128]` weight. -/
def topRows (g : (⟨2, ![256, 128]⟩ : Shape).Idx → EReal) : (⟨2, ![128, 128]⟩ : Shape).Idx → EReal :=
  fun i => g (ix2 ⟨(i 0).val, by have := idx2_lt0 i; omega⟩ (i 1))

/-- Its last 128 rows. -/
def bottomRows (g : (⟨2, ![256, 128]⟩ : Shape).Idx → EReal) : (⟨2, ![128, 128]⟩ : Shape).Idx → EReal :=
  fun i => g (ix2 ⟨128 + (i 0).val, by have := idx2_lt0 i; omega⟩ (i 1))

/-- A vector of 128 entries laid out as one row. -/
def rowOf (b : (⟨1, ![128]⟩ : Shape).Idx → EReal) : (⟨2, ![1, 128]⟩ : Shape).Idx → EReal :=
  fun i => b (ix1 (i 1))

/-- A sum over 256 positions is the sum over the first 128 plus the sum over the last 128. -/
theorem sum_halves (f : Fin 256 → EReal) :
    ∑ k : Fin 256, f k
      = (∑ k : Fin 128, f ⟨k.val, by omega⟩) + ∑ k : Fin 128, f ⟨128 + k.val, by omega⟩ := by
  have e := Fin.sum_univ_add (a := 128) (b := 128) (f := (f : Fin (128 + 128) → EReal))
  rw [e]
  rfl

end Cert.GatedGraph

end
-- ==== Proof.LibPlainDot.lean ====
/-
  A plain matrix product `[M, K] × [K, N] → [M, N]` read at one element, at the ideal values, at any extents.

  Whether it is a kernel's `tpu.matmul` into a zero accumulator or a host program's `dot_general`, with the left
  operand contracted along its second axis and the right one along its first and no batch axis, the element
  `(p, q)` of the product is `∑ k, lhs (p, k) · rhs (k, q)` on the extended reals, `k` running over the `K`
  positions of the contracted axis. The dimension numbers enter through equations on their lists, so that a
  program's own record (whose lists are literals) supplies each by `rfl`.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Among equal positions an index has equal coordinates (the positions here are sums of list lengths). -/
private theorem val_congr {s : Shape} (j : s.Idx) (a b : Nat) (ha : a < s.rank) (hb : b < s.rank) (h : a = b) :
    (j ⟨a, ha⟩).val = (j ⟨b, hb⟩).val := by subst h; rfl

/-- The left operand's row is the result's row. -/
theorem lhs_row (hlb : d.lhsBatch = []) (hln : d.lhsNonContracting = [0]) (j : (⟨2, ![M, N]⟩ : Shape).Idx)
    (k : d.contr.Idx) : (d.lhsIdx j k 0).val = (j 0).val := by
  unfold DotDims.lhsIdx
  rw [dif_neg (by rw [hlb]; exact List.not_mem_nil),
    dif_pos (show (0 : Fin 2) ∈ d.lhsNonContracting by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil),
    dif_pos (show (1 : Fin 2) ∈ d.rhsNonContracting by rw [hrn]; exact List.mem_singleton.mpr rfl)]
  simp only [Fin.val_cast]
  exact val_congr j _ _ _ _ (by simp [hlb, hln, hrn])

section Sum

variable (hlb : d.lhsBatch = []) (hrb : d.rhsBatch = []) (hln : d.lhsNonContracting = [0])
  (hrn : d.rhsNonContracting = [1]) (hlc : d.lhsContracting = [1]) (hrc : d.rhsContracting = [0])
  (hr : d.contr.rank = 1) (hs : d.contr.size ⟨0, by omega⟩ = K)

include hlb hrb hln hrn hlc hrc hr hs

/-- The contraction's sum, its index set re-indexed by the contracted axis's positions. -/
theorem sum_contr (lhs : (⟨2, ![M, K]⟩ : Shape).Idx → EReal) (rhs : (⟨2, ![K, N]⟩ : Shape).Idx → EReal) (p : Fin M)
    (q : Fin N) :
    ∑ k : d.contr.Idx, lhs (d.lhsIdx (ix2 p q) k) * rhs (d.rhsIdx (ix2 p q) k)
      = ∑ k : Fin K, lhs (ix2 p k) * rhs (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := by
    funext a; refine Fin.ext ?_
    match a with
    | ⟨0, _⟩ => exact lhs_row d hlb hln _ _
    | ⟨1, _⟩ => exact (lhs_col d hlc _ _).trans hk
  have er : d.rhsIdx (ix2 p q) ((contrEquiv1 d K hr hs).symm k) = ix2 k q := by
    funext a; refine Fin.ext ?_
    match a with
    | ⟨0, _⟩ => exact (rhs_row d hrc _ _).trans hk
    | ⟨1, _⟩ => exact rhs_col d hlb hrb hln hrn _ _
  rw [el, er]

/-- A kernel's `tpu.matmul` into the zero splat, at `(p, q)`. -/
theorem matmul_zero_apply {φ₁ φ₂ : FTy} (prec : Option ContractPrecision) (lhs : FVec Ideal ⟨2, ![M, K]⟩ φ₁)
    (rhs : FVec Ideal ⟨2, ![K, N]⟩ φ₂) (p : Fin M) (q : Fin N) :
    matmul d prec lhs rhs (constant ⟨2, ![M, N]⟩ .f32 0x00000000#32) (ix2 p q)
      = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact sum_contr d hlb hrb hln hrn hlc hrc hr hs lhs rhs p q

/-- A host program's `dot_general`, at `(p, q)`. -/
theorem dotGeneral_apply {φ₁ φ₂ : FTy} (prec : Option ContractPrecision) (lhs : FVec Ideal ⟨2, ![M, K]⟩ φ₁)
    (rhs : FVec Ideal ⟨2, ![K, N]⟩ φ₂) (p : Fin M) (q : Fin N) :
    Host.dotGeneral d prec lhs rhs (ix2 p q) = ∑ k : Fin K, lhs (ix2 p k) * rhs (ix2 k q) := by
  show FloatOps.dotGeneral d prec .single lhs rhs (ix2 p q) = _
  rw [Ideal.dotGeneral_apply]
  exact sum_contr d hlb hrb hln hrn hlc hrc hr hs lhs rhs p q

end Sum

end Idealize.ShloMosaic.PlainDot
-- ==== Proof.Dense0.lean ====
/-
  What the first dense region leaves in its output array: the whole product, although it is computed one block of
  2000 rows at a time.

  At grid point `t` the region stages rows `2000 t … 2000 t + 1999` of the features, the whole weight, multiplies them
  (the conversions to a narrower float format are the identity on the extended reals, and a product accumulated into
  zeros is the plain sum over the 128 contracted positions) and writes the `[2000, 128]` result back to the same rows
  of the output. Element `(p, q)` of that block is `∑ k, a (2000 t + p, k) · w (k, q)`, which is element
  `(2000 t + p, q)` of `dense a w`: every block is the restriction of ONE function of the two arrays as the region
  found them. The 25 blocks cover the 50000 rows, so the output array ends as `dense a w`.
-/
import proofs.«157526_j51238959841304_1_alg».proof.Proof.Gen.KernelIdeal.Frame
import proofs.«157526_j51238959841304_1_alg».proof.Proof.Spec
import proofs.«157526_j51238959841304_1_alg».proof.Proof.LibPlainDot
import Idealize.ShloMosaic.Lib.Pipeline.Value

set_option maxRecDepth 16384

open scoped BigOperators

noncomputable section

namespace Cert.KernelIdeal.Dense0

open Cert.KernelIdeal Cert.KernelIdeal.Gen Idealize.ShloMosaic Idealize.ShloMosaic.TcCoe Idealize.SL.Sem
open Idealize.ShloMosaic.ValueIdx Cert.GatedGraph
open Idealize.ShloMosaic.Pipeline (Dat)

variable (V : (c : Dev nD) → (b : Ref sig .tc) → Buf (Elt Ideal) ((c : Thread nD τ).loc b))

/-- The feature array and the weight as the region finds them, at their literal types. -/
abbrev arrA (c : Dev nD) : (⟨2, ![50000, 128]⟩ : Shape).Idx → EReal := V c main_v0
abbrev arrW (c : Dev nD) : (⟨2, ![128, 128]⟩ : Shape).Idx → EReal := V c main_arg2

theorem origin : (![0, 0] : Fin 2 → Nat) = fun _ => 0 := funext fun a => by fin_cases a <;> rfl

/-- The body's stored value at `(p, q)`: the sum over the contracted positions. -/
theorem product_apply (x : Vec Ideal S2000x128 .f32) (w : Vec Ideal S128x128 .f32) (p : Fin 2000) (q : Fin 128) :
    k0_pay1 x w (ix2 p q) = ∑ k : Fin 128, x (ix2 p k) * w (ix2 k q) := by
  unfold k0_pay1
  refine (PlainDot.matmul_zero_apply dot_S2000x128_S128x128_S2000x128_1_0_0_1_n_n rfl rfl rfl rfl rfl rfl rfl rfl
    none _ _ p q).trans ?_
  simp only [truncf_apply, shapeCast_self]

theorem product_at (x : Vec Ideal S2000x128 .f32) (w : Vec Ideal S128x128 .f32) (j : S2000x128.Idx) :
    k0_pay1 x w j = ∑ k : Fin 128, x (ix2 (j 0) k) * w (ix2 k (j 1)) := by
  obtain ⟨p, q, rfl⟩ : ∃ (p : Fin 2000) (q : Fin 128), j = ix2 p q := ⟨j 0, j 1, eq_ix2 j⟩
  exact product_apply x w p q

/-- The printed index maps over the 25 points: the feature block and the output block are block `t` of the rows,
    column block 0; the weight is block (0, 0). -/
theorem index_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 24 :=
  (by decide +kernel : ∀ t : Fin grid0.N, _)

/-- Every block of rows is some point's. -/
theorem index_onto : ∀ b : Fin 25, ∃ t : Fin cfg0.N, win0_2.index t = ![b.val, 0] :=
  (by decide +kernel : ∀ b : Fin 25, ∃ t : Fin grid0.N, win0_2.index t = ![b.val, 0])

/-- What point `t` writes back is block `t` of the whole product. -/
theorem flushed_eq (c : Dev nD) (t : Fin cfg0.N) :
    (dat0 V c).flushed 2 t
      = ((cfg0.win 2).blk t).view.read (Elt Ideal) (dense (arrA V c) (arrW V c)) := by
  show (cfg0.win 2).cut (grid0.coords t) ((dat0 V c).after 2 t) = _
  rw [after0_2]
  unfold out0_2
  rw [View.canon_unit_zero origin]
  simp only [View.ld_unit_zero (S := S2000x128) origin, View.ld_unit_zero (S := S128x128) origin]
  obtain ⟨e0, e1, e2, e3, e4, e5⟩ := index_facts t
  funext j
  show k0_pay1 (iblk0 V c 0 t) (iblk0 V c 1 t) j = dense (arrA V c) (arrW V c) (((cfg0.win 2).blk t).view.emb j)
  refine (product_at (iblk0 V c 0 t) (iblk0 V c 1 t) j).trans ?_
  show _ = ∑ k : Fin 128, arrA V c (ix2 ((((cfg0.win 2).blk t).view.emb j) 0) k) * arrW V c (ix2 k ((((cfg0.win 2).blk t).view.emb j) 1))
  refine Finset.sum_congr rfl fun k _ => ?_
  show arrA V c (((cfg0.win 0).blk t).view.emb (ix2 (j 0) k)) * arrW V c (((cfg0.win 1).blk t).view.emb (ix2 k (j 1))) = _
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [h0, h1]
  rfl

/-- An index is in point `t`'s output block iff each coordinate is in the block's range. -/
theorem mem_block (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v30).slice (win0_2.rect t)).set ↔ _
  rw [View.set_slice_whole, Rect.mem_set_unit]
  exact Iff.rfl

/-- The blocks cover the array: row `r` lies in block `r / 2000`. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := index_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The output array after the region: the whole product of the two arrays as the region found them. -/
theorem final (c : Dev nD) : (dat0 V c).arrAt 2 cfg0.N = dense (arrA V c) (arrW V c) :=
  (dat0 V c).arrAt_eq_of_cover 2 (dense (arrA V c) (arrW V c)) (fun t _ => flushed_eq V c t) covered

end Cert.KernelIdeal.Dense0

end
-- ==== Proof.Dense1.lean ====
/-
  What the second dense region leaves in its output array: the whole product, although it is computed one block of
  2000 rows at a time.

  At grid point `t` the region stages rows `2000 t … 2000 t + 1999` of the features, the whole weight, multiplies them
  (the conversions to a narrower float format are the identity on the extended reals, and a product accumulated into
  zeros is the plain sum over the 128 contracted positions) and writes the `[2000, 128]` result back to the same rows
  of the output. Element `(p, q)` of that block is `∑ k, a (2000 t + p, k) · w (k, q)`, which is element
  `(2000 t + p, q)` of `dense a w`: every block is the restriction of ONE function of the two arrays as the region
  found them. The 25 blocks cover the 50000 rows, so the output array ends as `dense a w`.
-/
import proofs.«157526_j51238959841304_1_alg».proof.Proof.Gen.KernelIdeal.Frame
import proofs.«157526_j51238959841304_1_alg».proof.Proof.Spec
import proofs.«157526_j51238959841304_1_alg».proof.Proof.LibPlainDot
import Idealize.ShloMosaic.Lib.Pipeline.Value

set_option maxRecDepth 16384

open scoped BigOperators

noncomputable section

namespace Cert.KernelIdeal.Dense1

open Cert.KernelIdeal Cert.KernelIdeal.Gen Idealize.ShloMosaic Idealize.ShloMosaic.TcCoe Idealize.SL.Sem
open Idealize.ShloMosaic.ValueIdx Cert.GatedGraph
open Idealize.ShloMosaic.Pipeline (Dat)

variable (V : (c : Dev nD) → (b : Ref sig .tc) → Buf (Elt Ideal) ((c : Thread nD τ).loc b))

/-- The feature array and the weight as the region finds them, at their literal types. -/
abbrev arrA (c : Dev nD) : (⟨2, ![50000, 128]⟩ : Shape).Idx → EReal := V c main_v47
abbrev arrW (c : Dev nD) : (⟨2, ![128, 128]⟩ : Shape).Idx → EReal := V c main_arg4

theorem origin : (![0, 0] : Fin 2 → Nat) = fun _ => 0 := funext fun a => by fin_cases a <;> rfl

/-- The body's stored value at `(p, q)`: the sum over the contracted positions. -/
theorem product_apply (x : Vec Ideal S2000x128 .f32) (w : Vec Ideal S128x128 .f32) (p : Fin 2000) (q : Fin 128) :
    k1_pay1 x w (ix2 p q) = ∑ k : Fin 128, x (ix2 p k) * w (ix2 k q) := by
  unfold k1_pay1
  refine (PlainDot.matmul_zero_apply dot_S2000x128_S128x128_S2000x128_1_0_0_1_n_n rfl rfl rfl rfl rfl rfl rfl rfl
    none _ _ p q).trans ?_
  simp only [truncf_apply, shapeCast_self]

theorem product_at (x : Vec Ideal S2000x128 .f32) (w : Vec Ideal S128x128 .f32) (j : S2000x128.Idx) :
    k1_pay1 x w j = ∑ k : Fin 128, x (ix2 (j 0) k) * w (ix2 k (j 1)) := by
  obtain ⟨p, q, rfl⟩ : ∃ (p : Fin 2000) (q : Fin 128), j = ix2 p q := ⟨j 0, j 1, eq_ix2 j⟩
  exact product_apply x w p q

/-- The printed index maps over the 25 points: the feature block and the output block are block `t` of the rows,
    column block 0; the weight is block (0, 0). -/
theorem index_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 24 :=
  (by decide +kernel : ∀ t : Fin grid1.N, _)

/-- Every block of rows is some point's. -/
theorem index_onto : ∀ b : Fin 25, ∃ t : Fin cfg1.N, win1_2.index t = ![b.val, 0] :=
  (by decide +kernel : ∀ b : Fin 25, ∃ t : Fin grid1.N, win1_2.index t = ![b.val, 0])

/-- What point `t` writes back is block `t` of the whole product. -/
theorem flushed_eq (c : Dev nD) (t : Fin cfg1.N) :
    (dat1 V c).flushed 2 t
      = ((cfg1.win 2).blk t).view.read (Elt Ideal) (dense (arrA V c) (arrW V c)) := by
  show (cfg1.win 2).cut (grid1.coords t) ((dat1 V c).after 2 t) = _
  rw [after1_2]
  unfold out1_2
  rw [View.canon_unit_zero origin]
  simp only [View.ld_unit_zero (S := S2000x128) origin, View.ld_unit_zero (S := S128x128) origin]
  obtain ⟨e0, e1, e2, e3, e4, e5⟩ := index_facts t
  funext j
  show k1_pay1 (iblk1 V c 0 t) (iblk1 V c 1 t) j = dense (arrA V c) (arrW V c) (((cfg1.win 2).blk t).view.emb j)
  refine (product_at (iblk1 V c 0 t) (iblk1 V c 1 t) j).trans ?_
  show _ = ∑ k : Fin 128, arrA V c (ix2 ((((cfg1.win 2).blk t).view.emb j) 0) k) * arrW V c (ix2 k ((((cfg1.win 2).blk t).view.emb j) 1))
  refine Finset.sum_congr rfl fun k _ => ?_
  show arrA V c (((cfg1.win 0).blk t).view.emb (ix2 (j 0) k)) * arrW V c (((cfg1.win 1).blk t).view.emb (ix2 k (j 1))) = _
  have h0 : ((cfg1.win 0).blk t).view.emb (ix2 (j 0) k) = ix2 ((((cfg1.win 2).blk t).view.emb j) 0) k := by
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 128 + 1 * k.val = k.val; omega
  have h1 : ((cfg1.win 1).blk t).view.emb (ix2 k (j 1)) = ix2 k ((((cfg1.win 2).blk t).view.emb j) 1) := by
    funext a; apply Fin.ext
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega
  rw [h0, h1]
  rfl

/-- An index is in point `t`'s output block iff each coordinate is in the block's range. -/
theorem mem_block (t : Fin cfg1.N) (i : S50000x128.Idx) :
    i ∈ ((cfg1.win 2).blk t).view.set ↔ ∀ a : Fin 2, win1_2.index t a * S2000x128.size a ≤ (i a).val
      ∧ (i a).val < win1_2.index t a * S2000x128.size a + S2000x128.size a := by
  show i ∈ ((View.whole main_v48).slice (win1_2.rect t)).set ↔ _
  rw [View.set_slice_whole, Rect.mem_set_unit]
  exact Iff.rfl

/-- The blocks cover the array: row `r` lies in block `r / 2000`. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := index_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- The output array after the region: the whole product of the two arrays as the region found them. -/
theorem final (c : Dev nD) : (dat1 V c).arrAt 2 cfg1.N = dense (arrA V c) (arrW V c) :=
  (dat1 V c).arrAt_eq_of_cover 2 (dense (arrA V c) (arrW V c)) (fun t _ => flushed_eq V c t) covered

end Cert.KernelIdeal.Dense1

end
-- ==== Proof.Gate2.lean ====
/-
  What the gating region leaves in its output array: the residual state times its sigmoid gate, as ONE function of
  the five arrays the region reads, although it is computed one block of 2000 rows at a time.

  At grid point `t` the region stages rows `2000 t … 2000 t + 1999` of the state `h` and of the clipped features
  `x`, the two `[128, 128]` halves of the gate's weight and the bias row, and stores
  `h · sigmoid (h · wh + x · wx + b)` for those rows. The two products are plain sums over the 128 contracted positions
  (the narrowing conversions are the identity on the extended reals, the accumulators start at zero), the bias row is
  repeated down the rows, and `tpu.logistic` is `1 / (1 + e^(-t))`. So element `(p, q)` of the block is element
  `(2000 t + p, q)` of `gated h x wh wx b`, and the 25 blocks cover the 50000 rows.
-/
import proofs.«157526_j51238959841304_1_alg».proof.Proof.Gen.KernelIdeal.Frame
import proofs.«157526_j51238959841304_1_alg».proof.Proof.Spec
import proofs.«157526_j51238959841304_1_alg».proof.Proof.LibPlainDot
import Idealize.ShloMosaic.Lib.Pipeline.Value

set_option maxRecDepth 16384

open scoped BigOperators

noncomputable section

namespace Cert.KernelIdeal.Gate2

open Cert.KernelIdeal Cert.KernelIdeal.Gen Idealize.ShloMosaic Idealize.ShloMosaic.TcCoe Idealize.SL.Sem
open Idealize.ShloMosaic.ValueIdx Cert.GatedGraph
open Idealize.ShloMosaic.Pipeline (Dat)

variable (V : (c : Dev nD) → (b : Ref sig .tc) → Buf (Elt Ideal) ((c : Thread nD τ).loc b))

/-- The five arrays as the region finds them, at their literal types. -/
abbrev arrH (c : Dev nD) : (⟨2, ![50000, 128]⟩ : Shape).Idx → EReal := V c main_v66
abbrev arrX (c : Dev nD) : (⟨2, ![50000, 128]⟩ : Shape).Idx → EReal := V c main_v0
abbrev arrWh (c : Dev nD) : (⟨2, ![128, 128]⟩ : Shape).Idx → EReal := V c main_v67
abbrev arrWx (c : Dev nD) : (⟨2, ![128, 128]⟩ : Shape).Idx → EReal := V c main_v68
abbrev arrB (c : Dev nD) : (⟨2, ![1, 128]⟩ : Shape).Idx → EReal := V c main_v69

theorem origin : (![0, 0] : Fin 2 → Nat) = fun _ => 0 := funext fun a => by fin_cases a <;> rfl

/-- The bias row repeated down the 2000 rows, read at `(p, q)`. -/
theorem bias_apply (b : Vec Ideal S1x128 .f32) (p : Fin 2000) (q : Fin 128) :
    broadcastTo S2000x128 b broadcasts_S1x128_S2000x128 (ix2 p q) = b (ix2 0 q) :=
  broadcastTo_apply b broadcasts_S1x128_S2000x128 (ix2 p q) (ix2 0 q) (fun a => match a with
    | ⟨0, _⟩ => by show (0 : Nat) = if (1 : Nat) = 1 then 0 else _; rw [if_pos rfl]
    | ⟨1, _⟩ => by show q.val = if (128 : Nat) = 1 then 0 else q.val; rw [if_neg (by decide)])

/-- The body's stored value at `(p, q)`. -/
theorem gate_apply (h x : Vec Ideal S2000x128 .f32) (wh wx : Vec Ideal S128x128 .f32) (b : Vec Ideal S1x128 .f32)
    (p : Fin 2000) (q : Fin 128) :
    k2_pay1 h x wh wx b (ix2 p q)
      = h (ix2 p q) * Ideal.logistic ((∑ k : Fin 128, h (ix2 p k) * wh (ix2 k q))
          + (∑ k : Fin 128, x (ix2 p k) * wx (ix2 k q)) + b (ix2 0 q)) := by
  unfold k2_pay1
  simp only [shapeCast_self, mulf_apply, addf_apply, logistic, Ideal.logistic_def,
    PlainDot.matmul_zero_apply dot_S2000x128_S128x128_S2000x128_1_0_0_1_n_n rfl rfl rfl rfl rfl rfl rfl rfl,
    truncf_apply]
  rw [bias_apply]

theorem gate_at (h x : Vec Ideal S2000x128 .f32) (wh wx : Vec Ideal S128x128 .f32) (b : Vec Ideal S1x128 .f32)
    (j : S2000x128.Idx) :
    k2_pay1 h x wh wx b j
      = h j * Ideal.logistic ((∑ k : Fin 128, h (ix2 (j 0) k) * wh (ix2 k (j 1)))
          + (∑ k : Fin 128, x (ix2 (j 0) k) * wx (ix2 k (j 1))) + b (ix2 0 (j 1))) := by
  obtain ⟨p, q, rfl⟩ : ∃ (p : Fin 2000) (q : Fin 128), j = ix2 p q := ⟨j 0, j 1, eq_ix2 j⟩
  exact gate_apply h x wh wx b p q

/-- The printed index maps over the 25 points. -/
theorem index_facts : ∀ t : Fin cfg2.N, win2_0.index t (0 : Fin 2) = win2_5.index t (0 : Fin 2)
    ∧ win2_0.index t (1 : Fin 2) = 0 ∧ win2_1.index t (0 : Fin 2) = win2_5.index t (0 : Fin 2)
    ∧ win2_1.index t (1 : Fin 2) = 0 ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0 ∧ win2_5.index t (0 : Fin 2) ≤ 24 :=
  (by decide +kernel : ∀ t : Fin grid2.N, _)

theorem index_onto : ∀ b : Fin 25, ∃ t : Fin cfg2.N, win2_5.index t = ![b.val, 0] :=
  (by decide +kernel : ∀ b : Fin 25, ∃ t : Fin grid2.N, win2_5.index t = ![b.val, 0])

set_option maxHeartbeats 1600000 in
/-- What point `t` writes back is block `t` of the gated state. -/
theorem flushed_eq (c : Dev nD) (t : Fin cfg2.N) :
    (dat2 V c).flushed 5 t
      = ((cfg2.win 5).blk t).view.read (Elt Ideal)
          (gated (arrH V c) (arrX V c) (arrWh V c) (arrWx V c) (arrB V c)) := by
  show (cfg2.win 5).cut (grid2.coords t) ((dat2 V c).after 5 t) = _
  rw [after2_5]
  unfold out2_5
  rw [View.canon_unit_zero origin]
  simp only [View.ld_unit_zero (S := S2000x128) origin, View.ld_unit_zero (S := S128x128) origin,
    View.ld_unit_zero (S := S1x128) origin]
  obtain ⟨e0, e1, e2, e3, e4, e5, e6, e7, e8, e9, e10, e11⟩ := index_facts t
  funext j
  show k2_pay1 (iblk2 V c 0 t) (iblk2 V c 1 t) (iblk2 V c 2 t) (iblk2 V c 3 t) (iblk2 V c 4 t) j
    = gated (arrH V c) (arrX V c) (arrWh V c) (arrWx V c) (arrB V c) (((cfg2.win 5).blk t).view.emb j)
  refine (gate_at (iblk2 V c 0 t) (iblk2 V c 1 t) (iblk2 V c 2 t) (iblk2 V c 3 t) (iblk2 V c 4 t) j).trans ?_
  have hJ : ((cfg2.win 0).blk t).view.emb j = ((cfg2.win 5).blk t).view.emb j := by
    funext a; apply Fin.ext
    match a with
    | ⟨0, _⟩ => show win2_0.index t (0 : Fin 2) * 2000 + 1 * (j 0).val = win2_5.index t (0 : Fin 2) * 2000 + 1 * (j 0).val; omega
    | ⟨1, _⟩ => show win2_0.index t (1 : Fin 2) * 128 + 1 * (j 1).val = win2_5.index t (1 : Fin 2) * 128 + 1 * (j 1).val; omega
  have hH : ∀ k : Fin 128, ((cfg2.win 0).blk t).view.emb (ix2 (j 0) k) = ix2 ((((cfg2.win 5).blk t).view.emb j) 0) k := by
    intro k; funext a; apply Fin.ext
    match a with
    | ⟨0, _⟩ => show win2_0.index t (0 : Fin 2) * 2000 + 1 * (j 0).val = win2_5.index t (0 : Fin 2) * 2000 + 1 * (j 0).val; omega
    | ⟨1, _⟩ => show win2_0.index t (1 : Fin 2) * 128 + 1 * k.val = k.val; omega
  have hX : ∀ k : Fin 128, ((cfg2.win 1).blk t).view.emb (ix2 (j 0) k) = ix2 ((((cfg2.win 5).blk t).view.emb j) 0) k := by
    intro k; funext a; apply Fin.ext
    match a with
    | ⟨0, _⟩ => show win2_1.index t (0 : Fin 2) * 2000 + 1 * (j 0).val = win2_5.index t (0 : Fin 2) * 2000 + 1 * (j 0).val; omega
    | ⟨1, _⟩ => show win2_1.index t (1 : Fin 2) * 128 + 1 * k.val = k.val; omega
  have hWh : ∀ k : Fin 128, ((cfg2.win 2).blk t).view.emb (ix2 k (j 1)) = ix2 k ((((cfg2.win 5).blk t).view.emb j) 1) := by
    intro k; funext a; apply Fin.ext
    match a with
    | ⟨0, _⟩ => show win2_2.index t (0 : Fin 2) * 128 + 1 * k.val = k.val; omega
    | ⟨1, _⟩ => show win2_2.index t (1 : Fin 2) * 128 + 1 * (j 1).val = win2_5.index t (1 : Fin 2) * 128 + 1 * (j 1).val; omega
  have hWx : ∀ k : Fin 128, ((cfg2.win 3).blk t).view.emb (ix2 k (j 1)) = ix2 k ((((cfg2.win 5).blk t).view.emb j) 1) := by
    intro k; funext a; apply Fin.ext
    match a with
    | ⟨0, _⟩ => show win2_3.index t (0 : Fin 2) * 128 + 1 * k.val = k.val; omega
    | ⟨1, _⟩ => show win2_3.index t (1 : Fin 2) * 128 + 1 * (j 1).val = win2_5.index t (1 : Fin 2) * 128 + 1 * (j 1).val; omega
  have hB : ((cfg2.win 4).blk t).view.emb (ix2 0 (j 1)) = ix2 0 ((((cfg2.win 5).blk t).view.emb j) 1) := by
    funext a; apply Fin.ext
    match a with
    | ⟨0, _⟩ => show win2_4.index t (0 : Fin 2) * 1 + 1 * 0 = 0; omega
    | ⟨1, _⟩ => show win2_4.index t (1 : Fin 2) * 128 + 1 * (j 1).val = win2_5.index t (1 : Fin 2) * 128 + 1 * (j 1).val; omega
  show _ = arrH V c (((cfg2.win 5).blk t).view.emb j) * Ideal.logistic
      ((∑ k : Fin 128, arrH V c (ix2 ((((cfg2.win 5).blk t).view.emb j) 0) k) * arrWh V c (ix2 k ((((cfg2.win 5).blk t).view.emb j) 1)))
        + (∑ k : Fin 128, arrX V c (ix2 ((((cfg2.win 5).blk t).view.emb j) 0) k) * arrWx V c (ix2 k ((((cfg2.win 5).blk t).view.emb j) 1)))
        + arrB V c (ix2 0 ((((cfg2.win 5).blk t).view.emb j) 1)))
  refine congrArg₂ (· * ·) ?_ (congrArg Ideal.logistic (congrArg₂ (· + ·) (congrArg₂ (· + ·)
    (Finset.sum_congr rfl fun k _ => ?_) (Finset.sum_congr rfl fun k _ => ?_)) ?_))
  · show arrH V c (((cfg2.win 0).blk t).view.emb j) = _
    exact congrArg (arrH V c) hJ
  · show arrH V c (((cfg2.win 0).blk t).view.emb (ix2 (j 0) k)) * arrWh V c (((cfg2.win 2).blk t).view.emb (ix2 k (j 1))) = _
    exact congrArg₂ (· * ·) (congrArg (arrH V c) (hH k)) (congrArg (arrWh V c) (hWh k))
  · show arrX V c (((cfg2.win 1).blk t).view.emb (ix2 (j 0) k)) * arrWx V c (((cfg2.win 3).blk t).view.emb (ix2 k (j 1))) = _
    exact congrArg₂ (· * ·) (congrArg (arrX V c) (hX k)) (congrArg (arrWx V c) (hWx k))
  · show arrB V c (((cfg2.win 4).blk t).view.emb (ix2 0 (j 1))) = _
    exact congrArg (arrB V c) hB

/-- An index is in point `t`'s output block iff each coordinate is in the block's range. -/
theorem mem_block (t : Fin cfg2.N) (i : S50000x128.Idx) :
    i ∈ ((cfg2.win 5).blk t).view.set ↔ ∀ a : Fin 2, win2_5.index t a * S2000x128.size a ≤ (i a).val
      ∧ (i a).val < win2_5.index t a * S2000x128.size a + S2000x128.size a := by
  show i ∈ ((View.whole main_v70).slice (win2_5.rect t)).set ↔ _
  rw [View.set_slice_whole, Rect.mem_set_unit]
  exact Iff.rfl

/-- The blocks cover the array: row `r` lies in block `r / 2000`. -/
theorem covered (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ := index_onto ⟨(i 0).val / 2000, by omega⟩
  have q0 : win2_5.index t (0 : Fin 2) = (i 0).val / 2000 := congrFun ht 0
  have q1 : win2_5.index t (1 : Fin 2) = 0 := congrFun ht 1
  refine ⟨t, flush2_5 t, ?_⟩
  rw [mem_block]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega

/-- The output array after the region: the gated state of the five arrays as the region found them. -/
theorem final (c : Dev nD) :
    (dat2 V c).arrAt 5 cfg2.N = gated (arrH V c) (arrX V c) (arrWh V c) (arrWx V c) (arrB V c) :=
  (dat2 V c).arrAt_eq_of_cover 5 (gated (arrH V c) (arrX V c) (arrWh V c) (arrWx V c) (arrB V c))
    (fun t _ => flushed_eq V c t) covered

end Cert.KernelIdeal.Gate2

end
-- ==== Proof.KValue.lean ====
/-
  The kernel program's result as ONE function of its eight arguments.

  The program is three dense regions among stretches of host arithmetic. Walking the buffer contents from the launch
  memory to the last boundary: the first stretches clip the features and build the edge lists and the per-edge norms
  from the edge list alone; the first region multiplies the clipped features by the first weight (`dense`); the next
  stretch aggregates that product over the graph, adds the first bias and clamps at zero; the second region
  multiplies the result by the second weight; the next stretch aggregates again with the second bias, clamps, adds
  the clipped features back and splits the gate's weight; the last region gates. No step writes a buffer a later step
  still reads, so each step finds its inputs at the values the earlier steps gave them.
-/
import proofs.«157526_j51238959841304_1_alg».proof.Proof.KHost
import proofs.«157526_j51238959841304_1_alg».proof.Proof.Dense0
import proofs.«157526_j51238959841304_1_alg».proof.Proof.Dense1
import proofs.«157526_j51238959841304_1_alg».proof.Proof.Gate2

set_option maxRecDepth 16384

noncomputable section

namespace Cert.KernelIdeal.Whole

open Cert.KernelIdeal Cert.KernelIdeal.Gen Cert.KernelIdeal.HostValue Idealize.ShloMosaic Idealize.ShloMosaic.TcCoe
open Idealize.SL.Sem Cert.GatedGraph

/-- The result of the kernel program from its arguments: two rounds of (dense product, aggregation over the graph,
    bias, clamp), the residual sum with the clipped features, and the sigmoid gate. -/
def kernelValue (x : (⟨S50000x128, .f32⟩ : BufTy).Contents (Elt Ideal)) (e : (⟨S2x800000, .i32⟩ : BufTy).Contents (Elt Ideal)) (w1 : (⟨S128x128, .f32⟩ : BufTy).Contents (Elt Ideal))
    (b1 : (⟨S128, .f32⟩ : BufTy).Contents (Elt Ideal)) (w2 : (⟨S128x128, .f32⟩ : BufTy).Contents (Elt Ideal)) (b2 : (⟨S128, .f32⟩ : BufTy).Contents (Elt Ideal)) (g : (⟨S256x128, .f32⟩ : BufTy).Contents (Elt Ideal))
    (bg : (⟨S128, .f32⟩ : BufTy).Contents (Elt Ideal)) : (⟨S50000x128, .f32⟩ : BufTy).Contents (Elt Ideal) :=
  gated
    (addf
      (relu (aggregate
        (dense (relu (aggregate (dense (clip x) w1) (edgeSrc e) (edgeDst e) (edgeNorm (edgeSrc e) (edgeDst e)) b1)) w2)
        (edgeSrc e) (edgeDst e) (edgeNorm (edgeSrc e) (edgeDst e)) b2))
      (clip x))
    (clip x) (upperHalf g) (lowerHalf g) (asRow bg)

variable (m : (ℓ : Loc nD τ sig) → Buf (Elt Ideal) ℓ) (ρ : Dev nD → PrngReg) (c : Dev nD)

set_option quotPrecheck false

local notation "a₀" => m ((c.tc : Thread nD τ).loc main_arg0)
local notation "a₁" => m ((c.tc : Thread nD τ).loc main_arg1)
local notation "a₂" => m ((c.tc : Thread nD τ).loc main_arg2)
local notation "a₃" => m ((c.tc : Thread nD τ).loc main_arg3)
local notation "a₄" => m ((c.tc : Thread nD τ).loc main_arg4)
local notation "a₅" => m ((c.tc : Thread nD τ).loc main_arg5)
local notation "a₆" => m ((c.tc : Thread nD τ).loc main_arg6)
local notation "a₇" => m ((c.tc : Thread nD τ).loc main_arg7)

/-! ## At the first region's entry -/

theorem edges3 : W2 m ρ c (Proc.devRef .tc main_arg1) = a₁ := keep_clip_edges (W0 m ρ c)

theorem clipped3 : W3 m ρ c (Proc.devRef .tc main_v0) = clip a₀ :=
  (keep_graph_clipped (W2 m ρ c)).trans (clip_after (W0 m ρ c))

theorem src3 : W3 m ρ c (Proc.devRef .tc main_v4) = edgeSrc a₁ :=
  (src_after (W2 m ρ c)).trans (congrArg edgeSrc (edges3 m ρ c))

theorem dst3 : W3 m ρ c (Proc.devRef .tc main_v7) = edgeDst a₁ :=
  (dst_after (W2 m ρ c)).trans (congrArg edgeDst (edges3 m ρ c))

theorem norm3 : W3 m ρ c (Proc.devRef .tc main_v29) = edgeNorm (edgeSrc a₁) (edgeDst a₁) :=
  (norm_after (W2 m ρ c)).trans (by rw [edges3 m ρ c])

theorem args3 (r : Ref sig .tc)
    (hr : r = main_arg2 ∨ r = main_arg3 ∨ r = main_arg4 ∨ r = main_arg5 ∨ r = main_arg6 ∨ r = main_arg7) :
    W3 m ρ c (Proc.devRef .tc r) = m ((c.tc : Thread nD τ).loc r) :=
  keep_before_first (W0 m ρ c) r hr

/-! ## After the first region -/

theorem product4 : W4 m ρ c (Proc.devRef .tc main_v30) = dense (clip a₀) a₂ := by
  refine ((W4_arr m ρ c 2).trans (Dense0.final (V3 m ρ) c)).trans ?_
  show dense (W3 m ρ c (Proc.devRef .tc main_v0)) (W3 m ρ c (Proc.devRef .tc main_arg2)) = _
  rw [clipped3 m ρ c, args3 m ρ c main_arg2 (Or.inl rfl)]

theorem clipped4 : W4 m ρ c (Proc.devRef .tc main_v0) = clip a₀ :=
  ((W4_arr m ρ c 0).trans (((dat0 (V3 m ρ) c).arrAt_in 0 rfl _).trans (A_eq0 (V3 m ρ) c 0))).trans (clipped3 m ρ c)

theorem src4 : W4 m ρ c (Proc.devRef .tc main_v4) = edgeSrc a₁ :=
  (W4_of_ne m ρ c main_v4 (by decide)).trans (src3 m ρ c)

theorem dst4 : W4 m ρ c (Proc.devRef .tc main_v7) = edgeDst a₁ :=
  (W4_of_ne m ρ c main_v7 (by decide)).trans (dst3 m ρ c)

theorem norm4 : W4 m ρ c (Proc.devRef .tc main_v29) = edgeNorm (edgeSrc a₁) (edgeDst a₁) :=
  (W4_of_ne m ρ c main_v29 (by decide)).trans (norm3 m ρ c)

theorem bias4 : W4 m ρ c (Proc.devRef .tc main_arg3) = a₃ :=
  (W4_of_ne m ρ c main_arg3 (by decide)).trans (args3 m ρ c main_arg3 (Or.inr (Or.inl rfl)))

theorem weight4 : W4 m ρ c (Proc.devRef .tc main_arg4) = a₄ :=
  (W4_of_ne m ρ c main_arg4 (by decide)).trans (args3 m ρ c main_arg4 (Or.inr (Or.inr (Or.inl rfl))))

theorem bias4' : W4 m ρ c (Proc.devRef .tc main_arg5) = a₅ :=
  (W4_of_ne m ρ c main_arg5 (by decide)).trans (args3 m ρ c main_arg5 (Or.inr (Or.inr (Or.inr (Or.inl rfl)))))

theorem gateW4 : W4 m ρ c (Proc.devRef .tc main_arg6) = a₆ :=
  (W4_of_ne m ρ c main_arg6 (by decide)).trans (args3 m ρ c main_arg6 (Or.inr (Or.inr (Or.inr (Or.inr (Or.inl rfl))))))

theorem gateB4 : W4 m ρ c (Proc.devRef .tc main_arg7) = a₇ :=
  (W4_of_ne m ρ c main_arg7 (by decide)).trans (args3 m ρ c main_arg7 (Or.inr (Or.inr (Or.inr (Or.inr (Or.inr rfl))))))

/-! ## At the second region's entry -/

/-- The first layer's output. -/
abbrev layer1 : (⟨S50000x128, .f32⟩ : BufTy).Contents (Elt Ideal) :=
  relu (aggregate (dense (clip a₀) a₂) (edgeSrc a₁) (edgeDst a₁) (edgeNorm (edgeSrc a₁) (edgeDst a₁)) a₃)

theorem hidden6 : W6 m ρ c (Proc.devRef .tc main_v47) = layer1 m c := by
  refine (relu1_after (W5 m ρ c)).trans ?_
  refine congrArg relu ?_
  refine (agg1_after (W4 m ρ c)).trans ?_
  rw [product4 m ρ c, src4 m ρ c, dst4 m ρ c, norm4 m ρ c, bias4 m ρ c]

theorem clipped6 : W6 m ρ c (Proc.devRef .tc main_v0) = clip a₀ :=
  (keep_between (W4 m ρ c) main_v0 (Or.inl rfl)).trans (clipped4 m ρ c)
theorem src6 : W6 m ρ c (Proc.devRef .tc main_v4) = edgeSrc a₁ :=
  (keep_between (W4 m ρ c) main_v4 (Or.inr (Or.inl rfl))).trans (src4 m ρ c)
theorem dst6 : W6 m ρ c (Proc.devRef .tc main_v7) = edgeDst a₁ :=
  (keep_between (W4 m ρ c) main_v7 (Or.inr (Or.inr (Or.inl rfl)))).trans (dst4 m ρ c)
theorem norm6 : W6 m ρ c (Proc.devRef .tc main_v29) = edgeNorm (edgeSrc a₁) (edgeDst a₁) :=
  (keep_between (W4 m ρ c) main_v29 (Or.inr (Or.inr (Or.inr (Or.inl rfl))))).trans (norm4 m ρ c)
theorem weight6 : W6 m ρ c (Proc.devRef .tc main_arg4) = a₄ :=
  (keep_between (W4 m ρ c) main_arg4 (Or.inr (Or.inr (Or.inr (Or.inr (Or.inl rfl)))))).trans (weight4 m ρ c)
theorem bias6 : W6 m ρ c (Proc.devRef .tc main_arg5) = a₅ :=
  (keep_between (W4 m ρ c) main_arg5 (Or.inr (Or.inr (Or.inr (Or.inr (Or.inr (Or.inl rfl))))))).trans (bias4' m ρ c)
theorem gateW6 : W6 m ρ c (Proc.devRef .tc main_arg6) = a₆ :=
  (keep_between (W4 m ρ c) main_arg6 (Or.inr (Or.inr (Or.inr (Or.inr (Or.inr (Or.inr (Or.inl rfl)))))))).trans (gateW4 m ρ c)
theorem gateB6 : W6 m ρ c (Proc.devRef .tc main_arg7) = a₇ :=
  (keep_between (W4 m ρ c) main_arg7 (Or.inr (Or.inr (Or.inr (Or.inr (Or.inr (Or.inr (Or.inr rfl)))))))).trans (gateB4 m ρ c)

/-! ## After the second region -/

theorem product7 : W7 m ρ c (Proc.devRef .tc main_v48) = dense (layer1 m c) a₄ := by
  refine ((W7_arr m ρ c 2).trans (Dense1.final (V6 m ρ) c)).trans ?_
  show dense (W6 m ρ c (Proc.devRef .tc main_v47)) (W6 m ρ c (Proc.devRef .tc main_arg4)) = _
  rw [hidden6 m ρ c, weight6 m ρ c]

theorem clipped7 : W7 m ρ c (Proc.devRef .tc main_v0) = clip a₀ :=
  (W7_of_ne m ρ c main_v0 (by decide)).trans (clipped6 m ρ c)
theorem src7 : W7 m ρ c (Proc.devRef .tc main_v4) = edgeSrc a₁ :=
  (W7_of_ne m ρ c main_v4 (by decide)).trans (src6 m ρ c)
theorem dst7 : W7 m ρ c (Proc.devRef .tc main_v7) = edgeDst a₁ :=
  (W7_of_ne m ρ c main_v7 (by decide)).trans (dst6 m ρ c)
theorem norm7 : W7 m ρ c (Proc.devRef .tc main_v29) = edgeNorm (edgeSrc a₁) (edgeDst a₁) :=
  (W7_of_ne m ρ c main_v29 (by decide)).trans (norm6 m ρ c)
theorem bias7 : W7 m ρ c (Proc.devRef .tc main_arg5) = a₅ :=
  (W7_of_ne m ρ c main_arg5 (by decide)).trans (bias6 m ρ c)
theorem gateW7 : W7 m ρ c (Proc.devRef .tc main_arg6) = a₆ :=
  (W7_of_ne m ρ c main_arg6 (by decide)).trans (gateW6 m ρ c)
theorem gateB7 : W7 m ρ c (Proc.devRef .tc main_arg7) = a₇ :=
  (W7_of_ne m ρ c main_arg7 (by decide)).trans (gateB6 m ρ c)

/-! ## At the last region's entry -/

/-- The second layer's output. -/
abbrev layer2 : (⟨S50000x128, .f32⟩ : BufTy).Contents (Elt Ideal) :=
  relu (aggregate (dense (layer1 m c) a₄) (edgeSrc a₁) (edgeDst a₁) (edgeNorm (edgeSrc a₁) (edgeDst a₁)) a₅)

theorem clipped9 : W9 m ρ c (Proc.devRef .tc main_v0) = clip a₀ :=
  (keep_second (W7 m ρ c) main_v0 (Or.inl rfl)).trans (clipped7 m ρ c)

theorem state10 : W10 m ρ c (Proc.devRef .tc main_v66) = addf (layer2 m c) (clip a₀) := by
  refine (residual_after (W9 m ρ c)).trans ?_
  rw [clipped9 m ρ c]
  refine congrArg (fun t => addf t (clip a₀)) ?_
  refine (relu2_after (W8 m ρ c)).trans ?_
  refine congrArg relu ?_
  refine (agg2_after (W7 m ρ c)).trans ?_
  rw [product7 m ρ c, src7 m ρ c, dst7 m ρ c, norm7 m ρ c, bias7 m ρ c]

theorem clipped10 : W10 m ρ c (Proc.devRef .tc main_v0) = clip a₀ :=
  (keep_last (W9 m ρ c)).trans (clipped9 m ρ c)

theorem upper10 : W10 m ρ c (Proc.devRef .tc main_v67) = upperHalf a₆ :=
  (upper_after (W9 m ρ c)).trans
    (congrArg upperHalf ((keep_second (W7 m ρ c) main_arg6 (Or.inr (Or.inl rfl))).trans (gateW7 m ρ c)))

theorem lower10 : W10 m ρ c (Proc.devRef .tc main_v68) = lowerHalf a₆ :=
  (lower_after (W9 m ρ c)).trans
    (congrArg lowerHalf ((keep_second (W7 m ρ c) main_arg6 (Or.inr (Or.inl rfl))).trans (gateW7 m ρ c)))

theorem row10 : W10 m ρ c (Proc.devRef .tc main_v69) = asRow a₇ :=
  (row_after (W9 m ρ c)).trans
    (congrArg asRow ((keep_second (W7 m ρ c) main_arg7 (Or.inr (Or.inr rfl))).trans (gateB7 m ρ c)))

/-! ## The result -/

/-- At the last boundary the result buffer holds `kernelValue` of the launch memory's arguments. -/
theorem result_eq : W11 m ρ c (Proc.devRef .tc main_v70) = kernelValue a₀ a₁ a₂ a₃ a₄ a₅ a₆ a₇ := by
  refine ((W11_arr m ρ c 5).trans (Gate2.final (V10 m ρ) c)).trans ?_
  show gated (W10 m ρ c (Proc.devRef .tc main_v66)) (W10 m ρ c (Proc.devRef .tc main_v0))
    (W10 m ρ c (Proc.devRef .tc main_v67)) (W10 m ρ c (Proc.devRef .tc main_v68))
    (W10 m ρ c (Proc.devRef .tc main_v69)) = _
  rw [state10 m ρ c, clipped10 m ρ c, upper10 m ρ c, lower10 m ρ c, row10 m ρ c]
  rfl

end Cert.KernelIdeal.Whole

end
-- ==== Proof.RDense.lean ====
/-
  The reference's two dense products are the function `dense`: a host `dot_general` contracting the features'
  second axis with the weight's first, no batch axis, read at `(r, q)` on the extended reals is the sum over the 128
  contracted positions.
-/
import proofs.«157526_j51238959841304_1_alg».proof.Proof.Gen.ReferenceIdeal.Read
import proofs.«157526_j51238959841304_1_alg».proof.Proof.Spec
import proofs.«157526_j51238959841304_1_alg».proof.Proof.LibPlainDot

open scoped BigOperators

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.GatedGraph

/-- The host product `[50000, 128] × [128, 128]` is `dense`. -/
theorem host_dense (a : FVec Ideal S50000x128 .f32) (w : FVec Ideal S128x128 .f32) :
    Host.dotGeneral (F := Ideal) dot_S50000x128_S128x128_S50000x128_1_0_0_1_n_n none a w = dense a w := by
  funext i
  obtain ⟨r, q, rfl⟩ : ∃ (r : Fin 50000) (q : Fin 128), i = ix2 r q := ⟨i 0, i 1, eq_ix2 i⟩
  exact PlainDot.dotGeneral_apply dot_S50000x128_S128x128_S50000x128_1_0_0_1_n_n rfl rfl rfl rfl rfl rfl rfl rfl
    none a w r q

/-- The first layer's product. -/
theorem first_product (x0 : (⟨S50000x128, .f32⟩ : BufTy).Contents (Elt Ideal)) (x2 : (⟨S128x128, .f32⟩ : BufTy).Contents (Elt Ideal)) :
    val_main_v8 (F := Ideal) x0 x2 = dense (val_main_v0 (F := Ideal) x0) x2 := by
  unfold val_main_v8
  exact host_dense _ _

/-- The second layer's product. -/
theorem second_product (x0 : (⟨S50000x128, .f32⟩ : BufTy).Contents (Elt Ideal)) (x1 : (⟨S2x800000, .i32⟩ : BufTy).Contents (Elt Ideal)) (x2 : (⟨S128x128, .f32⟩ : BufTy).Contents (Elt Ideal))
    (x3 : (⟨S128, .f32⟩ : BufTy).Contents (Elt Ideal)) (x4 : (⟨S128x128, .f32⟩ : BufTy).Contents (Elt Ideal)) :
    val_main_v48 (F := Ideal) x0 x1 x2 x3 x4 = dense (val_main_v47 (F := Ideal) x0 x1 x2 x3) x4 := by
  unfold val_main_v48
  exact host_dense _ _

end Cert.ReferenceIdeal.RefValue

end
-- ==== Proof.RGate.lean ====
/-
  The reference's last stage is the function `gated`.

  The reference joins the residual state `h` and the clipped features `x` side by side into a `[50000, 256]` array,
  multiplies it by the gate's `[256, 128]` weight, adds the bias, applies the sigmoid spelt out as
  `1 / (1 + e^(-t))`, and multiplies by `h`. Row `r` of the joined array is `h (r, ·)` on its first 128 positions and
  `x (r, ·)` on its last 128, so the product's sum over 256 positions is the sum of `h (r, k) · g (k, q)` over the
  first 128 plus the sum of `x (r, k) · g (128 + k, q)` over the last 128 (`sum_halves`): the two products of the
  gate with the two halves of the weight. The sigmoid's spelling is `Ideal.logistic` by definition.
-/
import proofs.«157526_j51238959841304_1_alg».proof.Proof.Gen.ReferenceIdeal.Read
import proofs.«157526_j51238959841304_1_alg».proof.Proof.Spec
import Idealize.ShloMosaic.Lib.Pipeline.Value

open scoped BigOperators

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.GatedGraph

/-- The word `0x3F800000` denotes one. -/
theorem one_word : Ideal.ofBits .f32 0x3F800000#32 = 1 := by
  simp [Ideal.ofBits, Ideal.ieee, -EReal.coe_mul]; norm_num

/-- The joined row at one of its first 128 positions is the state's row. -/
theorem joined_left (h x : S50000x128.Idx → EReal) (r : Fin 50000) (k : Fin 128) :
    concatenate S50000x256 1 [⟨S50000x128, h⟩, ⟨S50000x128, x⟩] concatenates_S50000x128_S50000x128_S50000x256_d1
      (ix2 r ⟨k.val, by omega⟩) = h (ix2 r k) :=
  concatenate_pair_apply_left (1 : Fin S50000x256.rank) h x concatenates_S50000x128_S50000x128_S50000x256_d1
    (ix2 r ⟨k.val, by omega⟩) rfl (ix2 r k) (fun b => match b with
      | ⟨0, _⟩ => rfl
      | ⟨1, _⟩ => rfl)

/-- At one of its last 128 positions it is the clipped features' row. -/
theorem joined_right (h x : S50000x128.Idx → EReal) (r : Fin 50000) (k : Fin 128) :
    concatenate S50000x256 1 [⟨S50000x128, h⟩, ⟨S50000x128, x⟩] concatenates_S50000x128_S50000x128_S50000x256_d1
      (ix2 r ⟨128 + k.val, by omega⟩) = x (ix2 r k) :=
  concatenate_pair_apply_right (1 : Fin S50000x256.rank) h x concatenates_S50000x128_S50000x128_S50000x256_d1
    (ix2 r ⟨128 + k.val, by omega⟩) rfl rfl (ix2 r k) (fun b => match b with
      | ⟨0, _⟩ => fun _ => rfl
      | ⟨1, _⟩ => fun hne => absurd rfl hne)
    (by show k.val + 128 = 128 + k.val; omega)

/-- The splat of the word for one is one everywhere (the two constants of the sigmoid's spelling). -/
theorem ones_apply (i : S50000x128.Idx) :
    val_main_v96 (F := Ideal) i = 1 ∧ val_main_v98 (F := Ideal) i = 1 := by
  rw [val_main_v96_apply, val_main_v98_apply, val_main_cst_20_apply, val_main_cst_21_apply]
  exact ⟨one_word, one_word⟩

/-- The bias repeated down the rows, at `(r, q)`. -/
theorem bias_apply (x7 : (⟨S128, .f32⟩ : BufTy).Contents (Elt Ideal)) (r : Fin 50000) (q : Fin 128) :
    val_main_v92 (F := Ideal) x7 (ix2 r q) = rowOf x7 (ix2 0 q) := by
  rw [val_main_v92_apply, val_main_v91_apply]
  exact congrArg x7 (funext fun a => Fin.ext (by match a with | ⟨0, _⟩ => rfl))

/-- The product with the joined features at `(r, q)`: the two half sums. -/
theorem joined_product_apply (h x : S50000x128.Idx → EReal) (x6 : (⟨S256x128, .f32⟩ : BufTy).Contents (Elt Ideal)) (r : Fin 50000) (q : Fin 128) :
    (∑ k : Fin 256,
        concatenate S50000x256 1 [⟨S50000x128, h⟩, ⟨S50000x128, x⟩] concatenates_S50000x128_S50000x128_S50000x256_d1
            (lidx_main_v90 (ix2 r q) k) * x6 (ridx_main_v90 (ix2 r q) k))
      = (∑ k : Fin 128, h (ix2 r k) * topRows x6 (ix2 k q)) + ∑ k : Fin 128, x (ix2 r k) * bottomRows x6 (ix2 k q) := by
  rw [sum_halves]
  refine congrArg₂ (· + ·) (Finset.sum_congr rfl fun k _ => ?_) (Finset.sum_congr rfl fun k _ => ?_)
  · have e1 : lidx_main_v90 (ix2 r q) ⟨k.val, by omega⟩ = ix2 r ⟨k.val, by omega⟩ :=
      funext fun a => Fin.ext (by match a with | ⟨0, _⟩ => rfl | ⟨1, _⟩ => rfl)
    have e2 : ridx_main_v90 (ix2 r q) ⟨k.val, by omega⟩ = ix2 ⟨k.val, by omega⟩ q :=
      funext fun a => Fin.ext (by match a with | ⟨0, _⟩ => rfl | ⟨1, _⟩ => rfl)
    rw [e1, e2, joined_left]
    rfl
  · have e1 : lidx_main_v90 (ix2 r q) ⟨128 + k.val, by omega⟩ = ix2 r ⟨128 + k.val, by omega⟩ :=
      funext fun a => Fin.ext (by match a with | ⟨0, _⟩ => rfl | ⟨1, _⟩ => rfl)
    have e2 : ridx_main_v90 (ix2 r q) ⟨128 + k.val, by omega⟩ = ix2 ⟨128 + k.val, by omega⟩ q :=
      funext fun a => Fin.ext (by match a with | ⟨0, _⟩ => rfl | ⟨1, _⟩ => rfl)
    rw [e1, e2, joined_right]
    rfl

/-- The gate's logit at `(r, q)`. -/
theorem logit_apply (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal))
    (x6 : (⟨S256x128, .f32⟩ : BufTy).Contents (Elt Ideal)) (x7 : (⟨S128, .f32⟩ : BufTy).Contents (Elt Ideal)) (r : Fin 50000) (q : Fin 128) :
    val_main_v93 (F := Ideal) x0 x1 x2 x3 x4 x5 x6 x7 (ix2 r q)
      = logit (val_main_v88 (F := Ideal) x0 x1 x2 x3 x4 x5) (val_main_v0 (F := Ideal) x0) (topRows x6) (bottomRows x6)
          (rowOf x7) r q := by
  rw [val_main_v93_apply, val_main_v90_apply, bias_apply]
  unfold val_main_v89
  rw [joined_product_apply]
  rfl

/-- The reference's result is the gated state. -/
theorem gate_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal))
    (x6 : (⟨S256x128, .f32⟩ : BufTy).Contents (Elt Ideal)) (x7 : (⟨S128, .f32⟩ : BufTy).Contents (Elt Ideal)) :
    val_main_v100 (F := Ideal) x0 x1 x2 x3 x4 x5 x6 x7
      = gated (val_main_v88 (F := Ideal) x0 x1 x2 x3 x4 x5) (val_main_v0 (F := Ideal) x0) (topRows x6) (bottomRows x6)
          (rowOf x7) := by
  funext i
  obtain ⟨r, q, rfl⟩ : ∃ (r : Fin 50000) (q : Fin 128), i = ix2 r q := ⟨i 0, i 1, eq_ix2 i⟩
  rw [gated_apply, ← logit_apply]
  rw [val_main_v100_apply, val_main_v99_apply, val_main_v97_apply, val_main_v95_apply, val_main_v94_apply,
    (ones_apply (ix2 r q)).1, (ones_apply (ix2 r q)).2]
  generalize val_main_v88 (F := Ideal) x0 x1 x2 x3 x4 x5 (ix2 r q) = a
  generalize val_main_v93 (F := Ideal) x0 x1 x2 x3 x4 x5 x6 x7 (ix2 r q) = t
  rfl

end Cert.ReferenceIdeal.RefValue

end
-- ==== Proof.Bridge.lean ====
/-
  The kernel program's result and the reference's result are one function of the eight arguments.

  Both programs clip the features, build the same edge lists and norms from the edge list, and run the same
  aggregation, bias and clamp after each dense product: those host operations are spelt identically in the two
  programs (each program names its own copy of the operations' dimension records, with equal contents), so the two
  sides agree by unfolding the names. The reference recomputes the norms for the second layer; the kernel's program
  reuses the first computation: the same term either way. What differs is only how the dense products and the gate are
  computed, and those are the functions `dense` and `gated` on both sides (the reference's by its own read-back, the
  kernel's by its regions' blocks). The halves of the gate's weight cut by slices, and the bias reshaped to a row, are
  the index functions `topRows`, `bottomRows`, `rowOf`.
-/
import proofs.«157526_j51238959841304_1_alg».proof.Proof.KValue
import proofs.«157526_j51238959841304_1_alg».proof.Proof.RDense
import proofs.«157526_j51238959841304_1_alg».proof.Proof.RGate

set_option maxHeartbeats 1000000

noncomputable section

namespace Cert.Bridge

open Idealize.ShloMosaic Idealize.ShloMosaic.TcCoe Idealize.ShloMosaic.ValueIdx Cert.GatedGraph
open Cert.KernelIdeal.HostValue Cert.KernelIdeal.Whole Cert.ReferenceIdeal.Read

/-! ## The shared host arithmetic -/

theorem clip_eq (x0 : (⟨Cert.ReferenceIdeal.S50000x128, .f32⟩ : BufTy).Contents (Elt Ideal)) : clip (F := Ideal) x0 = val_main_v0 (F := Ideal) x0 := rfl

theorem layer1_eq (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S128x128, .f32⟩ : BufTy).Contents (Elt Ideal))
    (x3 : (⟨Cert.ReferenceIdeal.S128, .f32⟩ : BufTy).Contents (Elt Ideal)) :
    val_main_v47 (F := Ideal) x0 x1 x2 x3
      = relu (aggregate (val_main_v8 (F := Ideal) x0 x2) (edgeSrc x1) (edgeDst x1) (edgeNorm (edgeSrc x1) (edgeDst x1)) x3) := rfl

theorem layer2_eq (x0 : (⟨Cert.ReferenceIdeal.S50000x128, .f32⟩ : BufTy).Contents (Elt Ideal)) (x1 : (⟨Cert.ReferenceIdeal.S2x800000, .i32⟩ : BufTy).Contents (Elt Ideal))
    (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) :
    val_main_v87 (F := Ideal) x0 x1 x2 x3 x4 x5
      = relu (aggregate (val_main_v48 (F := Ideal) x0 x1 x2 x3 x4) (edgeSrc x1) (edgeDst x1)
          (edgeNorm (edgeSrc x1) (edgeDst x1)) x5) := rfl

/-! ## The gate's parameters -/

theorem upper_eq (g : (⟨Cert.ReferenceIdeal.S256x128, .f32⟩ : BufTy).Contents (Elt Ideal)) : upperHalf (F := Ideal) g = topRows g := by
  funext i
  exact extractStridedSlice_apply _ g _ i _ (fun a => match a with
    | ⟨0, _⟩ => by show (i 0).val = 0 + (i 0).val; omega
    | ⟨1, _⟩ => by show (i 1).val = 0 + (i 1).val; omega)

theorem lower_eq (g : (⟨Cert.ReferenceIdeal.S256x128, .f32⟩ : BufTy).Contents (Elt Ideal)) : lowerHalf (F := Ideal) g = bottomRows g := by
  funext i
  exact extractStridedSlice_apply _ g _ i _ (fun a => match a with
    | ⟨0, _⟩ => by show 128 + (i 0).val = 128 + (i 0).val; rfl
    | ⟨1, _⟩ => by show (i 1).val = 0 + (i 1).val; omega)

theorem row_eq (b : (⟨Cert.ReferenceIdeal.S128, .f32⟩ : BufTy).Contents (Elt Ideal)) : asRow (F := Ideal) b = rowOf b := by
  funext i
  obtain ⟨p, q, rfl⟩ : ∃ (p : Fin 1) (q : Fin 128), i = ix2 p q := ⟨i 0, i 1, eq_ix2 i⟩
  refine shapeCast_apply b _ (ix2 p q) (ix1 q) ?_
  rw [Shape.rowMajor_val_two, Shape.rowMajor_val_one]
  have hp : p.val = 0 := by omega
  show q.val = p.val * 128 + q.val
  omega

/-! ## The two results -/

theorem result_eq (x0 : (⟨Cert.ReferenceIdeal.S50000x128, .f32⟩ : BufTy).Contents (Elt Ideal)) (x1 : (⟨Cert.ReferenceIdeal.S2x800000, .i32⟩ : BufTy).Contents (Elt Ideal))
    (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal))
    (x6 : (⟨Cert.ReferenceIdeal.S256x128, .f32⟩ : BufTy).Contents (Elt Ideal)) (x7 : (⟨Cert.ReferenceIdeal.S128, .f32⟩ : BufTy).Contents (Elt Ideal)) :
    kernelValue x0 x1 x2 x3 x4 x5 x6 x7 = val_main_v100 (F := Ideal) x0 x1 x2 x3 x4 x5 x6 x7 := by
  rw [Cert.ReferenceIdeal.RefValue.gate_eq]
  unfold kernelValue
  rw [upper_eq, lower_eq, row_eq, clip_eq]
  refine congrArg (fun t => gated t (val_main_v0 (F := Ideal) x0) (topRows x6) (bottomRows x6) (rowOf x7)) ?_
  unfold val_main_v88
  rw [layer2_eq, Cert.ReferenceIdeal.RefValue.second_product, layer1_eq, Cert.ReferenceIdeal.RefValue.first_product]

end Cert.Bridge

end
-- ==== Proof.lean ====
/-
  The certificate of a two-layer graph convolution with a residual sum and a sigmoid gate, computed with three dense
  regions, against its plain reference, over the extended reals.

  Both programs clip the features, append a self-loop to every node, normalise each edge by the inverse square roots
  of its ends' incoming-edge counts, and twice multiply by a weight, gather the product's rows at the edges' sources,
  scale, sum at the destinations, add a bias and clamp at zero; then they add the clipped features back and scale
  the state by the sigmoid of a linear function of the state and the clipped features. They differ in three places:
  the two weight products are computed 2000 rows at a time in the kernel's program and at once in the reference
  (one function, `dense`: a row of the product depends only on the same row of the features); the gate's linear
  function is two products with the two halves of the weight in the kernel's program and one product with the
  features joined side by side in the reference (one sum split in two halves, which needs only that addition on the
  extended reals is associative and commutative); and the sigmoid is one operation in the kernel and its spelling
  `1 / (1 + e^(-t))` in the reference (the same function by definition). No law used here needs the inputs finite, so
  the precondition is never opened.

  The three frames are the generated ones (the reference's is its generated run with the result dropped); the
  idealization rewrote nothing, so `preserves` is trivial; for `algebraic` the kernel program's result buffer is read
  at the end of its run (the generated launch called once more with that buffer in the post) and walked back through
  the regions and host stretches to `kernelValue` of the arguments, which is the reference's read-back term
  (`Cert.Bridge.result_eq`).
-/
import proofs.«157526_j51238959841304_1_alg».proof.Defs
import proofs.«157526_j51238959841304_1_alg».proof.Proof.Gen.Kernel
import proofs.«157526_j51238959841304_1_alg».proof.Proof.Gen.Kernel.Frame
import proofs.«157526_j51238959841304_1_alg».proof.Proof.Gen.KernelIdeal
import proofs.«157526_j51238959841304_1_alg».proof.Proof.Gen.KernelIdeal.Frame
import proofs.«157526_j51238959841304_1_alg».proof.Proof.Gen.ReferenceIdeal
import proofs.«157526_j51238959841304_1_alg».proof.Proof.Gen.Pre_finite_inputs
import proofs.«157526_j51238959841304_1_alg».proof.Proof.Gen.ReferenceIdeal.Run
import proofs.«157526_j51238959841304_1_alg».proof.Proof.Gen.ReferenceIdeal.Read
import proofs.«157526_j51238959841304_1_alg».proof.Proof.KRun
import proofs.«157526_j51238959841304_1_alg».proof.Proof.KValue
import proofs.«157526_j51238959841304_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result: the kernel program's result
    buffer holds `kernelValue` of its arguments, the reference's its read-back term of the same arguments, and the two
    are one function. -/
theorem algebraic : Cert.algebraic_KernelIdeal_ReferenceIdeal := by
  intro m ρ m' ρ' _ hagree
  refine ⟨fun c => Cert.KernelIdeal.Whole.kernelValue
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Whole.result_eq m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v100_eq, h0, h1, h2, h3, h4, h5, h6, h7]
    exact (Cert.Bridge.result_eq _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
